-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x384 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg2
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S384x128 : Shape := ⟨2, ![384, 128]⟩
abbrev S128x128 : Shape := ⟨2, ![128, 128]⟩
abbrev S1x128 : Shape := ⟨2, ![1, 128]⟩
abbrev S5000x128 : Shape := ⟨2, ![5000, 128]⟩

abbrev nBuf : Space → Nat
  | .hbm => 74
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x384, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S1x600000, .i32⟩
  | .hbm, ⟨34, _⟩ => ⟨S600000, .i32⟩
  | .hbm, ⟨35, _⟩ => ⟨S1x600000, .i32⟩
  | .hbm, ⟨36, _⟩ => ⟨S600000, .i32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S50000, .f32⟩
  | .hbm, ⟨54, _⟩ => ⟨S600000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S384x128, .f32⟩
  | .hbm, ⟨63, _⟩ => ⟨S128x128, .f32⟩
  | .hbm, ⟨64, _⟩ => ⟨S128x128, .bf16⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .bf16⟩
  | .hbm, ⟨69, _⟩ => ⟨S50000x128, .bf16⟩
  | .hbm, ⟨70, _⟩ => ⟨S50000x128, .bf16⟩
  | .hbm, ⟨71, _⟩ => ⟨S50000x128, .bf16⟩
  | .hbm, ⟨72, _⟩ => ⟨S1x128, .f32⟩
  | .hbm, ⟨73, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x384_S384x128_1_0 : S128x384.Transposes [1, 0] S384x128
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v53) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x384, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S1x600000, .i32⟩
  | .hbm, ⟨34, _⟩ => ⟨S600000, .i32⟩
  | .hbm, ⟨35, _⟩ => ⟨S1x600000, .i32⟩
  | .hbm, ⟨36, _⟩ => ⟨S600000, .i32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S50000, .f32⟩
  | .hbm, ⟨54, _⟩ => ⟨S600000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x384, .f32⟩
  | .hbm, ⟨63, _⟩ => ⟨S384x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x384_S384x128_S50000x128_1_0_0_1_n_n_wf : DotDims.WF S50000x384 S384x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KernelPayload.lean ====
/-
  What one grid point of the fused linear kernel computes, entry by entry, at the extended reals.

  The body loads three row blocks of 5000 × 128 features, the three 128 × 128 weight blocks and the bias row,
  multiplies each feature block by its weight block into a zero accumulator, adds the three products in order
  and adds the bias row to every row. At entry (p, q) of the point's block that is
      ((Σ_k a(p,k)·u(k,q) + Σ_k b(p,k)·v(k,q)) + Σ_k c(p,k)·w(k,q)) + bias(0,q),
  each sum over the 128 contracted columns: a product into the zero accumulator is the plain sum of products
  over the contracted axis, the identity casts drop out, and the bias row spread over the rows reads its own
  column.
-/
import proofs.«155205_j936302871073_1_alg».proof.Proof.Gen.KernelIdeal.Skeleton
import proofs.«155205_j936302871073_1_alg».proof.Proof.LibPlainDot
import Idealize.ShloMosaic.Lib.Pipeline.Value
import Idealize.ShloMosaic.Lib.ValueLayout
import Idealize.ShloMosaic.PureOps.Ideal.Laws

open scoped BigOperators

noncomputable section

namespace Cert.KernelIdeal.Lin3

open Cert.KernelIdeal Cert.KernelIdeal.Gen Idealize.ShloMosaic Idealize.ShloMosaic.ValueIdx

/-- The body's products contract the left operand's columns against the right operand's rows. -/
theorem plain : PlainDot.IsPlain dot_S5000x128_S128x128_S5000x128_1_0_0_1_n_n := ⟨rfl, rfl, rfl, rfl, rfl, rfl⟩

/-- One block product into the zero accumulator, at an entry: the sum over the 128 contracted columns,
    whatever the operands' float formats (a format is not seen at the extended reals). -/
theorem prod_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  (Ideal.matmul_constant_zero_apply dot_S5000x128_S128x128_S5000x128_1_0_0_1_n_n none l r (ix2 p q)).trans
    (PlainDot.sum_contr plain l r p q)

/-- The body's stored value at entry (p, q) of the point's block. -/
theorem pay_at (a b c : FVec Ideal S5000x128 .bf16) (u v w : FVec Ideal S128x128 .bf16) (bias : FVec Ideal S1x128 .f32)
    (p : Fin 5000) (q : Fin 128) :
    k0_pay1 (F := Ideal) a u b v c w bias (ix2 p q)
      = ((∑ k : Fin 128, a (ix2 p k) * u (ix2 k q) + ∑ k : Fin 128, b (ix2 p k) * v (ix2 k q))
          + ∑ k : Fin 128, c (ix2 p k) * w (ix2 k q)) + bias (ix2 (0 : Fin 1) q) := by
  unfold k0_pay1
  simp only [shapeCast_self]
  show ((matmul dot_S5000x128_S128x128_S5000x128_1_0_0_1_n_n none a u (constant S5000x128 .f32 0x00000000#32) (ix2 p q)
        + matmul dot_S5000x128_S128x128_S5000x128_1_0_0_1_n_n none b v (constant S5000x128 .f32 0x00000000#32) (ix2 p q))
      + matmul dot_S5000x128_S128x128_S5000x128_1_0_0_1_n_n none c w (constant S5000x128 .f32 0x00000000#32) (ix2 p q))
    + broadcastTo S5000x128 bias broadcasts_S1x128_S5000x128 (ix2 p q) = _
  rw [prod_at, prod_at, prod_at, ValueIdx.broadcastTo_1b_ab_apply]

end Cert.KernelIdeal.Lin3

end
-- ==== Proof.KernelArrays.lean ====
/-
  What the fused linear kernel's seven input arrays hold when the region is entered, as functions of the
  program's four arguments.

  The three feature arrays are the node features and the two hops of mean aggregation over in-neighbours,
  each narrowed to the shorter float format; the three weight arrays are the row blocks 0–127, 128–255 and
  256–383 of the transposed weight, narrowed likewise; the bias array is the bias laid as one row.
  The hops are long chains of gathers, scattered sums and a division by the clamped in-degree. The host
  program that the kernel is compared with computes them by the very same chain of operations, so each hop
  is carried here as ONE function of the features and the edge list (`hop1`, `hop2`) and is never opened.
-/
import proofs.«155205_j936302871073_1_alg».proof.Proof.Gen.KernelIdeal.Frame
import proofs.«155205_j936302871073_1_alg».proof.Proof.Gen.ReferenceIdeal.Read
import Idealize.ShloMosaic.Lib.StableHlo.Run

noncomputable section

namespace Cert.KernelIdeal.Lin3

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The node features. -/
abbrev feats (c : Dev nD) : FVec F S50000x128 .f32 := m ((c : Thread nD τ).loc main_arg0)
/-- The edge list: a row of sources over a row of destinations. -/
abbrev edges (c : Dev nD) : IVec S2x600000 32 := m ((c : Thread nD τ).loc main_arg1)
/-- The weight, 128 output rows of 384 input columns. -/
abbrev weight (c : Dev nD) : FVec F S128x384 .f32 := m ((c : Thread nD τ).loc main_arg2)
/-- The bias. -/
abbrev biasv (c : Dev nD) : FVec F S128 .f32 := m ((c : Thread nD τ).loc main_arg3)

/-- The first hop: each node's mean of its in-neighbours' features. One function of the features and the edge
    list, the one the compared host program computes. -/
def hop1 (c : Dev nD) : FVec F S50000x128 .f32 :=
  Cert.ReferenceIdeal.Read.val_main_v22 (F := F) (feats m c) (edges m c)
/-- The second hop: each node's mean of its in-neighbours' first-hop values. -/
def hop2 (c : Dev nD) : FVec F S50000x128 .f32 :=
  Cert.ReferenceIdeal.Read.val_main_v45 (F := F) (feats m c) (edges m c)

theorem hop1_eq (c : Dev nD) :
    hop1 m c = Cert.ReferenceIdeal.Read.val_main_v22 (F := F) (feats m c) (edges m c) := rfl
theorem hop2_eq (c : Dev nD) :
    hop2 m c = Cert.ReferenceIdeal.Read.val_main_v45 (F := F) (feats m c) (edges m c) := rfl

/-- The transposed weight's rows from `o`: one 128 × 128 block. -/
abbrev wT (c : Dev nD) : FVec F S384x128 .f32 := transpose S384x128 [1, 0] (weight m c) transposes_S128x384_S384x128_1_0

theorem arr_feats (c : Dev nD) :
    (V m c main_v53 : S50000x128.Idx → Elt F .bf16) = truncf .bf16 (feats m c) bitsLt_bf16_f32 := by
  dsimp only [V, hostOps0]; after_results_simp <;> rfl

theorem arr_hop1 (c : Dev nD) :
    (V m c main_v54 : S50000x128.Idx → Elt F .bf16) = truncf .bf16 (hop1 m c) bitsLt_bf16_f32 := by
  dsimp only [V, hostOps0]; after_results_simp <;> rfl

theorem arr_hop2 (c : Dev nD) :
    (V m c main_v55 : S50000x128.Idx → Elt F .bf16) = truncf .bf16 (hop2 m c) bitsLt_bf16_f32 := by
  dsimp only [V, hostOps0]; after_results_simp <;> rfl

theorem arr_w0 (c : Dev nD) :
    (V m c main_v48 : S128x128.Idx → Elt F .bf16)
      = truncf .bf16 (extractStridedSlice S128x128 ![0, 0] (wT m c) slices_S384x128_S128x128_0_0) bitsLt_bf16_f32 := by
  dsimp only [V, hostOps0]; after_results_simp <;> rfl

theorem arr_w1 (c : Dev nD) :
    (V m c main_v50 : S128x128.Idx → Elt F .bf16)
      = truncf .bf16 (extractStridedSlice S128x128 ![128, 0] (wT m c) slices_S384x128_S128x128_128_0) bitsLt_bf16_f32 := by
  dsimp only [V, hostOps0]; after_results_simp <;> rfl

theorem arr_w2 (c : Dev nD) :
    (V m c main_v52 : S128x128.Idx → Elt F .bf16)
      = truncf .bf16 (extractStridedSlice S128x128 ![256, 0] (wT m c) slices_S384x128_S128x128_256_0) bitsLt_bf16_f32 := by
  dsimp only [V, hostOps0]; after_results_simp <;> rfl

theorem arr_bias (c : Dev nD) :
    (V m c main_v56 : S1x128.Idx → Elt F .f32) = shapeCast S1x128 (biasv m c) shapeCasts_S128_S1x128 := by
  dsimp only [V, hostOps0]; after_results_simp <;> rfl

/- From here on the hops are closed: they are used only through `hop1_eq` / `hop2_eq` and the two array lemmas. -/
attribute [irreducible] hop1 hop2

end Cert.KernelIdeal.Lin3

end
-- ==== Proof.Lin3Spec.lean ====
/-
  The fused three-block linear layer, as one function of its operands, and the law that lets a
  host program's single product over the concatenated features be read block by block.

  For node features `x`, `h1`, `h2` of shape [50000, 128], a weight `W` of shape [128, 384] and a bias
  `b` of shape [128], the entry (p, q) of the layer is
      ((Σ_k x(p,k)·W(q,k) + Σ_k h1(p,k)·W(q,128+k)) + Σ_k h2(p,k)·W(q,256+k)) + b(q),
  each sum over the 128 columns of one block (`entry`, `G`).
  `sum_three`: a sum over 384 positions is the sum of its three consecutive blocks of 128, in any
  commutative additive monoid — on the extended reals this needs nothing of the summands, since their
  addition is commutative and associative at the infinities too.
-/
import Idealize.ShloMosaic.Lib.ValueIdx
import Idealize.ShloMosaic.PureOps.Ideal
import Mathlib.Algebra.BigOperators.Fin

open scoped BigOperators

noncomputable section

namespace Cert.Lin3

open Idealize.ShloMosaic Idealize.ShloMosaic.ValueIdx

/-- Node features and the result: 50000 rows of 128. -/
abbrev SN : Shape := ⟨2, ![50000, 128]⟩
/-- The weight: 128 output rows of 384 input columns. -/
abbrev SW : Shape := ⟨2, ![128, 384]⟩
/-- The bias. -/
abbrev SB : Shape := ⟨1, ![128]⟩

/-- Column `o + k` among the 384 concatenated feature columns: column `k` of the block that starts at `o`. -/
def col (o : ℕ) (ho : o + 128 ≤ 384) (k : Fin 128) : Fin 384 := ⟨o + k.val, by have := k.isLt; omega⟩

@[simp] theorem col_val (o : ℕ) (ho : o + 128 ≤ 384) (k : Fin 128) : (col o ho k).val = o + k.val := rfl

/-- Entry (p, q) of the layer: the three blocks' products summed in order, then the bias. -/
def entry (x h1 h2 : SN.Idx → EReal) (W : SW.Idx → EReal) (b : SB.Idx → EReal) (p : Fin 50000) (q : Fin 128) : EReal :=
  ((∑ k : Fin 128, x (ix2 p k) * W (ix2 q (col 0 (by omega) k))
      + ∑ k : Fin 128, h1 (ix2 p k) * W (ix2 q (col 128 (by omega) k)))
    + ∑ k : Fin 128, h2 (ix2 p k) * W (ix2 q (col 256 (by omega) k)))
  + b (ix1 q)

/-- The layer's result array. -/
def G (x h1 h2 : SN.Idx → EReal) (W : SW.Idx → EReal) (b : SB.Idx → EReal) : SN.Idx → EReal :=
  fun i => entry x h1 h2 W b (i 0) (i 1)

theorem G_apply (x h1 h2 : SN.Idx → EReal) (W : SW.Idx → EReal) (b : SB.Idx → EReal) (p : Fin 50000) (q : Fin 128) :
    G x h1 h2 W b (ix2 p q) = entry x h1 h2 W b p q := rfl

/-- A sum over 384 positions, block by block. -/
theorem sum_three {M : Type*} [AddCommMonoid M] (f : Fin 384 → M) :
    ∑ k, f k = (∑ k : Fin 128, f (col 0 (by omega) k) + ∑ k : Fin 128, f (col 128 (by omega) k))
      + ∑ k : Fin 128, f (col 256 (by omega) k) := by
  have e : ∀ g : Fin (128 + 128 + 128) → M, ∑ k, g k
      = (∑ k : Fin 128, g (Fin.castAdd 128 (Fin.castAdd 128 k)) + ∑ k : Fin 128, g (Fin.castAdd 128 (Fin.natAdd 128 k)))
        + ∑ k : Fin 128, g (Fin.natAdd (128 + 128) k) := by
    intro g
    rw [Fin.sum_univ_add, Fin.sum_univ_add]
  refine (e f).trans ?_
  refine congrArg₂ (· + ·) (congrArg₂ (· + ·) ?_ ?_) ?_ <;>
    exact Finset.sum_congr rfl fun k _ => congrArg f (Fin.ext (by simp [col] <;> omega))

end Cert.Lin3

end
-- ==== Proof.KernelValue.lean ====
/-
  The fused linear kernel's result array is the layer's function `Cert.Lin3.G` of the features, the two hops,
  the weight and the bias.

  The grid has ten points; point t works on rows 5000·t … 5000·t + 4999. Its three feature blocks are those rows
  of the features and of the two hops (`rows0_at`, `rows1_at`, `rows2_at`); its three weight blocks are, at every
  point, the whole 128 × 128 arrays cut from the transposed weight, so entry (k, q) of block s is W(q, 128·s + k)
  (`wblk0_at`, `wblk1_at`, `wblk2_at`); its bias block is the bias as one row (`bias_at`). With the body's value
  at an entry (`pay_at`) this makes what point t writes back rows 5000·t … of `G` (`flushed_eq`); the ten row
  blocks cover the 50000 rows (`cover`: row r lies in block r / 5000), so the array after the run is `G`.
-/
import proofs.«155205_j936302871073_1_alg».proof.Proof.Gen.KernelIdeal.Value
import proofs.«155205_j936302871073_1_alg».proof.Proof.KernelPayload
import proofs.«155205_j936302871073_1_alg».proof.Proof.KernelArrays
import proofs.«155205_j936302871073_1_alg».proof.Proof.Lin3Spec
import Idealize.ShloMosaic.Lib.Pipeline.Value
import Idealize.ShloMosaic.Lib.ValueLayout

set_option maxRecDepth 16384

open scoped BigOperators

noncomputable section

namespace Cert.KernelIdeal.Lin3

open Cert.KernelIdeal Cert.KernelIdeal.Gen Cert.KernelIdeal.Value
open Idealize.ShloMosaic Idealize.ShloMosaic.TcCoe Idealize.SL.Sem Idealize.ShloMosaic.ValueIdx Cert.Lin3
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer's result on core `c`, from the program's arguments there. -/
abbrev result (c : Dev nD) : Buf (Elt Ideal) ((c : Thread nD τ).loc main_v57) :=
  G (feats m c) (hop1 m c) (hop2 m c) (weight m c) (biasv m c)

/-! ## Where each window's block sits, decided over the ten points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Row `p` of point `t`'s block, among the 50000 rows. -/
def row (t : Fin cfg0.N) (p : Fin 5000) : Fin 50000 :=
  ⟨t.val * 5000 + p.val, by
    have ht : t.val < 10 := lt_of_lt_of_eq t.isLt N_0
    have := p.isLt; omega⟩

@[simp] theorem row_val (t : Fin cfg0.N) (p : Fin 5000) : (row t p).val = t.val * 5000 + p.val := rfl

/-- Narrowing a vector to a shorter float format changes no entry: on the extended reals a change of format is the
    identity. Stated over any vector, so that the vector it is applied to is never opened. -/
theorem narrow_at {s : Shape} {φ ψ : FTy} (x : FVec Ideal s φ) (h : ψ.bits < φ.bits) (i : s.Idx) :
    truncf ψ x h i = x i := rfl

/-! ## The point's input blocks, at their literal types -/

abbrev rows0 (c : Dev nD) (t : Fin cfg0.N) : FVec Ideal S5000x128 .bf16 := iblk m c 0 t
abbrev rows1 (c : Dev nD) (t : Fin cfg0.N) : FVec Ideal S5000x128 .bf16 := iblk m c 1 t
abbrev rows2 (c : Dev nD) (t : Fin cfg0.N) : FVec Ideal S5000x128 .bf16 := iblk m c 2 t
abbrev wblk0 (c : Dev nD) (t : Fin cfg0.N) : FVec Ideal S128x128 .bf16 := iblk m c 3 t
abbrev wblk1 (c : Dev nD) (t : Fin cfg0.N) : FVec Ideal S128x128 .bf16 := iblk m c 4 t
abbrev wblk2 (c : Dev nD) (t : Fin cfg0.N) : FVec Ideal S128x128 .bf16 := iblk m c 5 t
abbrev brow (c : Dev nD) (t : Fin cfg0.N) : FVec Ideal S1x128 .f32 := iblk m c 6 t

/-- The first feature block at point `t` is rows 5000·t … of the features. -/
theorem rows0_at (c : Dev nD) (t : Fin cfg0.N) (p : Fin 5000) (k : Fin 128) :
    rows0 m c t (ix2 p k) = feats m c (ix2 (row t p) k) := by
  obtain ⟨e0, e1⟩ := idx0 t
  show V m c main_v53 (((cfg0.win 0).blk t).view.emb (ix2 p k)) = _
  rw [arr_feats, narrow_at]
  refine congrArg (feats m c) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The second feature block is the same rows of the first hop. -/
theorem rows1_at (c : Dev nD) (t : Fin cfg0.N) (p : Fin 5000) (k : Fin 128) :
    rows1 m c t (ix2 p k) = hop1 m c (ix2 (row t p) k) := by
  obtain ⟨e0, e1⟩ := idx1 t
  -- over ANY array that is the narrowing of some `B`: the block's entry (p, k) is `B` at row 5000·t + p
  have key : ∀ (A : S50000x128.Idx → Elt Ideal .bf16) (B : FVec Ideal S50000x128 .f32),
      A = truncf .bf16 B bitsLt_bf16_f32 →
      ((cfg0.win 1).blk t).view.read (Elt Ideal) A (ix2 p k) = B (ix2 (row t p) k) := by
    intro A B hAB
    subst hAB
    show B (((cfg0.win 1).blk t).view.emb (ix2 p k)) = B (ix2 (row t p) k)
    refine congrArg B (funext fun a => Fin.ext ?_)
    match a with
    | ⟨0, _⟩ => show win0_1.index t (0 : Fin 2) * 5000 + 1 * p.val = t.val * 5000 + p.val; rw [e0]; omega
    | ⟨1, _⟩ => show win0_1.index t (1 : Fin 2) * 128 + 1 * k.val = k.val; rw [e1]; omega
  show iblk m c 1 t (ix2 p k) = _
  unfold iblk
  exact key _ (hop1 m c) (arr_hop1 m c)

/-- The third feature block is the same rows of the second hop. -/
theorem rows2_at (c : Dev nD) (t : Fin cfg0.N) (p : Fin 5000) (k : Fin 128) :
    rows2 m c t (ix2 p k) = hop2 m c (ix2 (row t p) k) := by
  obtain ⟨e0, e1⟩ := idx2 t
  -- over ANY array that is the narrowing of some `B`: the block's entry (p, k) is `B` at row 5000·t + p
  have key : ∀ (A : S50000x128.Idx → Elt Ideal .bf16) (B : FVec Ideal S50000x128 .f32),
      A = truncf .bf16 B bitsLt_bf16_f32 →
      ((cfg0.win 2).blk t).view.read (Elt Ideal) A (ix2 p k) = B (ix2 (row t p) k) := by
    intro A B hAB
    subst hAB
    show B (((cfg0.win 2).blk t).view.emb (ix2 p k)) = B (ix2 (row t p) k)
    refine congrArg B (funext fun a => Fin.ext ?_)
    match a with
    | ⟨0, _⟩ => show win0_2.index t (0 : Fin 2) * 5000 + 1 * p.val = t.val * 5000 + p.val; rw [e0]; omega
    | ⟨1, _⟩ => show win0_2.index t (1 : Fin 2) * 128 + 1 * k.val = k.val; rw [e1]; omega
  show iblk m c 2 t (ix2 p k) = _
  unfold iblk
  exact key _ (hop2 m c) (arr_hop2 m c)

/-- The first weight block, at every point: entry (k, q) is the weight at (q, k). -/
theorem wblk0_at (c : Dev nD) (t : Fin cfg0.N) (k q : Fin 128) :
    wblk0 m c t (ix2 k q) = weight m c (ix2 q (col 0 (by omega) k)) := by
  obtain ⟨e0, e1⟩ := idx3 t
  show V m c main_v48 (((cfg0.win 3).blk t).view.emb (ix2 k q)) = _
  rw [arr_w0]
  have he : ((cfg0.win 3).blk t).view.emb (ix2 k q) = ix2 k q := funext fun a => Fin.ext (by
    match a with
    | ⟨0, _⟩ => show win0_3.index t (0 : Fin 2) * 128 + 1 * k.val = k.val; rw [e0]; omega
    | ⟨1, _⟩ => show win0_3.index t (1 : Fin 2) * 128 + 1 * q.val = q.val; rw [e1]; omega)
  rw [he, narrow_at]
  rw [slice2_axis0_apply 0 (wT m c) slices_S384x128_S128x128_0_0 k q (col 0 (by omega) k) rfl]
  exact transpose_ix2_apply (weight m c) transposes_S128x384_S384x128_1_0 _ q

/-- The second weight block: entry (k, q) is the weight at (q, 128 + k). -/
theorem wblk1_at (c : Dev nD) (t : Fin cfg0.N) (k q : Fin 128) :
    wblk1 m c t (ix2 k q) = weight m c (ix2 q (col 128 (by omega) k)) := by
  obtain ⟨e0, e1⟩ := idx4 t
  show V m c main_v50 (((cfg0.win 4).blk t).view.emb (ix2 k q)) = _
  rw [arr_w1]
  have he : ((cfg0.win 4).blk t).view.emb (ix2 k q) = ix2 k q := funext fun a => Fin.ext (by
    match a with
    | ⟨0, _⟩ => show win0_4.index t (0 : Fin 2) * 128 + 1 * k.val = k.val; rw [e0]; omega
    | ⟨1, _⟩ => show win0_4.index t (1 : Fin 2) * 128 + 1 * q.val = q.val; rw [e1]; omega)
  rw [he, narrow_at]
  rw [slice2_axis0_apply 128 (wT m c) slices_S384x128_S128x128_128_0 k q (col 128 (by omega) k) rfl]
  exact transpose_ix2_apply (weight m c) transposes_S128x384_S384x128_1_0 _ q

/-- The third weight block: entry (k, q) is the weight at (q, 256 + k). -/
theorem wblk2_at (c : Dev nD) (t : Fin cfg0.N) (k q : Fin 128) :
    wblk2 m c t (ix2 k q) = weight m c (ix2 q (col 256 (by omega) k)) := by
  obtain ⟨e0, e1⟩ := idx5 t
  show V m c main_v52 (((cfg0.win 5).blk t).view.emb (ix2 k q)) = _
  rw [arr_w2]
  have he : ((cfg0.win 5).blk t).view.emb (ix2 k q) = ix2 k q := funext fun a => Fin.ext (by
    match a with
    | ⟨0, _⟩ => show win0_5.index t (0 : Fin 2) * 128 + 1 * k.val = k.val; rw [e0]; omega
    | ⟨1, _⟩ => show win0_5.index t (1 : Fin 2) * 128 + 1 * q.val = q.val; rw [e1]; omega)
  rw [he, narrow_at]
  rw [slice2_axis0_apply 256 (wT m c) slices_S384x128_S128x128_256_0 k q (col 256 (by omega) k) rfl]
  exact transpose_ix2_apply (weight m c) transposes_S128x384_S384x128_1_0 _ q

/-- The bias block, at every point: the bias as one row. -/
theorem bias_at (c : Dev nD) (t : Fin cfg0.N) (q : Fin 128) :
    brow m c t (ix2 (0 : Fin 1) q) = biasv m c (ix1 q) := by
  obtain ⟨e0, e1⟩ := idx6 t
  show V m c main_v56 (((cfg0.win 6).blk t).view.emb (ix2 (0 : Fin 1) q)) = _
  rw [arr_bias]
  have he : ((cfg0.win 6).blk t).view.emb (ix2 (0 : Fin 1) q) = ix2 (0 : Fin 1) q := funext fun a => Fin.ext (by
    match a with
    | ⟨0, _⟩ => show win0_6.index t (0 : Fin 2) * 1 + 1 * 0 = 0; rw [e0]
    | ⟨1, _⟩ => show win0_6.index t (1 : Fin 2) * 128 + 1 * q.val = q.val; rw [e1]; omega)
  rw [he]
  exact shapeCast_a_1a_apply (biasv m c) shapeCasts_S128_S1x128 0 q

/-! ## What a point writes back, the cover, the array after the run -/

/-- Point `t` writes back rows 5000·t … 5000·t + 4999 of the layer's result. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  obtain ⟨e0, e1⟩ := idx7 t
  show k0_pay1 (F := Ideal) (rows0 m c t) (wblk0 m c t) (rows1 m c t) (wblk1 m c t) (rows2 m c t) (wblk2 m c t) (brow m c t) (ix2 p q)
      = result m c (((cfg0.win 7).blk t).view.emb (ix2 p q))
  have he : ((cfg0.win 7).blk t).view.emb (ix2 p q) = ix2 (row t p) q := funext fun a => Fin.ext (by
    match a with
    | ⟨0, _⟩ => show win0_7.index t (0 : Fin 2) * 5000 + 1 * p.val = t.val * 5000 + p.val; rw [e0]; omega
    | ⟨1, _⟩ => show win0_7.index t (1 : Fin 2) * 128 + 1 * q.val = q.val; rw [e1]; omega)
  rw [he, pay_at]
  show _ = entry (feats m c) (hop1 m c) (hop2 m c) (weight m c) (biasv m c) (row t p) q
  unfold entry
  simp only [rows0_at, rows1_at, rows2_at, wblk0_at, wblk1_at, wblk2_at, bias_at]

/-- Every row lies in some point's block: row r in block r / 5000. -/
theorem cover (c : Dev nD) (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1⟩ := idx7 t
  refine ⟨t, flush0_7 t, ?_⟩
  show i ∈ ((View.whole main_v57).slice (win0_7.rect t)).set
  rw [View.set_slice_whole, Rect.mem_set_unit]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- The result array after the run is the layer's function of the arguments. -/
theorem final (c : Dev nD) : (dats m 0 c).arrAt 7 cfg0.N = result m c :=
  (dats m 0 c).arrAt_eq_of_cover 7 (result m c) (fun t _ => flushed_eq m c t) (cover c)

/-- The kernel's run, read: the result array at the layer's function, the arguments unchanged. -/
theorem run : θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Lin3

end
-- ==== Proof.LibConcat3.lean ====
/-
  A matrix assembled from three pieces of equal shape set side by side, read at an entry.

  Three `[r, a]` matrices concatenated along their columns into `[r, t]` (so `t = 3a`), read at row `i` and
  column `q`: the first piece at column `q` when `q < a` (`cols3_fst`), the second at column `q - a` when
  `a ≤ q < 2a` (`cols3_snd`), the third at column `q - 2a` otherwise (`cols3_thd`). The caller names the piece's
  own column `j` and the one equation that places it. Generic in the extents and in the entries' type: what
  `jnp.concatenate([x, y, z], axis=-1)` of three equal-width blocks prints, read one entry at a time.
-/
import Idealize.ShloMosaic.Lib.Pipeline.Value
import Idealize.ShloMosaic.Lib.ValueIdx

namespace Cert.LibConcat3

open Idealize.ShloMosaic Idealize.ShloMosaic.ValueIdx

variable {α : Type}

/-- Three matrices side by side, read at a column of the first. -/
theorem cols3_fst {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : j.val = q.val) :
    concatenate ⟨2, ![r, t]⟩ 1 [⟨⟨2, ![r, a]⟩, x0⟩, ⟨⟨2, ![r, a]⟩, x1⟩, ⟨⟨2, ![r, a]⟩, x2⟩] h (ix2 i q) = x0 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 0 (by show 0 < 3; omega) ⟨2, ![r, a]⟩ x0 rfl rfl 0 rfl (ix2 i j)
    (fun d hd => match d, hd with
      | ⟨0, _⟩, _ => rfl
      | ⟨1, _⟩, hd => (hd (Fin.ext rfl)).elim)
    (by show 0 + j.val = q.val; omega)

/-- Three matrices side by side, read at a column of the second: its own column is the column less one block's width. -/
theorem cols3_snd {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : a + j.val = q.val) :
    concatenate ⟨2, ![r, t]⟩ 1 [⟨⟨2, ![r, a]⟩, x0⟩, ⟨⟨2, ![r, a]⟩, x1⟩, ⟨⟨2, ![r, a]⟩, x2⟩] h (ix2 i q) = x1 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 1 (by show 1 < 3; omega) ⟨2, ![r, a]⟩ x1 rfl rfl a (by simp) (ix2 i j)
    (fun d hd => match d, hd with
      | ⟨0, _⟩, _ => rfl
      | ⟨1, _⟩, hd => (hd (Fin.ext rfl)).elim)
    hj

/-- Three matrices side by side, read at a column of the third: its own column is the column less two blocks' width. -/
theorem cols3_thd {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : a + a + j.val = q.val) :
    concatenate ⟨2, ![r, t]⟩ 1 [⟨⟨2, ![r, a]⟩, x0⟩, ⟨⟨2, ![r, a]⟩, x1⟩, ⟨⟨2, ![r, a]⟩, x2⟩] h (ix2 i q) = x2 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 2 (by show 2 < 3; omega) ⟨2, ![r, a]⟩ x2 rfl rfl (a + a) (by simp) (ix2 i j)
    (fun d hd => match d, hd with
      | ⟨0, _⟩, _ => rfl
      | ⟨1, _⟩, hd => (hd (Fin.ext rfl)).elim)
    hj

end Cert.LibConcat3
-- ==== Proof.RefValue.lean ====
/-
  The compared host program's result is the fused layer's function `Cert.Lin3.G` of the features, the two hops,
  the weight and the bias.

  The host sets the features and the two hops side by side into 384 columns, multiplies by the transposed
  weight in ONE product over all 384 columns, and adds the bias to every row. At entry (p, q):
      Σ_{k<384} cat(p,k)·Wᵀ(k,q) + b(q).
  Column k of the concatenation is column k, k-128 or k-256 of the features, the first or the second hop
  (`cat_fst` / `cat_snd` / `cat_thd`), and Wᵀ(k,q) = W(q,k) (`wT_at`); the sum over 384 columns, taken
  block by block (`Cert.Lin3.sum_three`: addition on the extended reals is commutative and associative,
  infinities included), is the three blocks' sums in order. The hops stay the opaque stages they are.
-/
import proofs.«155205_j936302871073_1_alg».proof.Proof.Gen.ReferenceIdeal.Read
import proofs.«155205_j936302871073_1_alg».proof.Proof.LibPlainDot
import proofs.«155205_j936302871073_1_alg».proof.Proof.Lin3Spec
import proofs.«155205_j936302871073_1_alg».proof.Proof.LibConcat3
import Idealize.ShloMosaic.Lib.ValueLayout
import Idealize.ShloMosaic.PureOps.Ideal.Laws

open scoped BigOperators

noncomputable section

namespace Cert.ReferenceIdeal.Lin3

open Cert.ReferenceIdeal Cert.ReferenceIdeal.Gen Cert.ReferenceIdeal.Read
open Idealize.ShloMosaic Idealize.ShloMosaic.ValueIdx Cert.Lin3 Cert.LibConcat3

variable (x0 : FVec Ideal S50000x128 .f32) (x1 : IVec S2x600000 32) (x2 : FVec Ideal S128x384 .f32) (x3 : FVec Ideal S128 .f32)

/-- The host's one product contracts the concatenation's columns against the transposed weight's rows. -/
theorem plain : PlainDot.IsPlain dot_S50000x384_S384x128_S50000x128_1_0_0_1_n_n := ⟨rfl, rfl, rfl, rfl, rfl, rfl⟩

/-- A column of the first block of the concatenation is the features' column. -/
theorem cat_fst (p : Fin 50000) (k : Fin 128) :
    val_main_v46 (F := Ideal) x0 x1 (ix2 p (col 0 (by omega) k)) = x0 (ix2 p k) := by
  unfold val_main_v46
  exact cols3_fst x0 (val_main_v22 (F := Ideal) x0 x1) (val_main_v45 (F := Ideal) x0 x1)
    concatenates_S50000x128_S50000x128_S50000x128_S50000x384_d1 p _ k (by simp)

/-- A column of the second block is the first hop's column. -/
theorem cat_snd (p : Fin 50000) (k : Fin 128) :
    val_main_v46 (F := Ideal) x0 x1 (ix2 p (col 128 (by omega) k)) = val_main_v22 (F := Ideal) x0 x1 (ix2 p k) := by
  unfold val_main_v46
  exact cols3_snd x0 (val_main_v22 (F := Ideal) x0 x1) (val_main_v45 (F := Ideal) x0 x1)
    concatenates_S50000x128_S50000x128_S50000x128_S50000x384_d1 p _ k (by simp)

/-- A column of the third block is the second hop's column. -/
theorem cat_thd (p : Fin 50000) (k : Fin 128) :
    val_main_v46 (F := Ideal) x0 x1 (ix2 p (col 256 (by omega) k)) = val_main_v45 (F := Ideal) x0 x1 (ix2 p k) := by
  unfold val_main_v46
  exact cols3_thd x0 (val_main_v22 (F := Ideal) x0 x1) (val_main_v45 (F := Ideal) x0 x1)
    concatenates_S50000x128_S50000x128_S50000x128_S50000x384_d1 p _ k (by simp)

/-- The transposed weight at (k, q) is the weight at (q, k). -/
theorem wT_at (k : Fin 384) (q : Fin 128) : val_main_v47 (F := Ideal) x2 (ix2 k q) = x2 (ix2 q k) := by
  unfold val_main_v47
  exact transpose_ix2_apply x2 transposes_S128x384_S384x128_1_0 k q

/-- The bias spread over the rows reads its own column. -/
theorem bias_at (p : Fin 50000) (q : Fin 128) : val_main_v50 (F := Ideal) x3 (ix2 p q) = x3 (ix1 q) := by
  rw [val_main_v50_apply, val_main_v49_apply]
  exact congrArg x3 (funext fun a => Fin.ext (match a with | ⟨0, _⟩ => rfl))

/-- The host's product at an entry, block by block. -/
theorem prod_at (p : Fin 50000) (q : Fin 128) :
    val_main_v48 (F := Ideal) x0 x1 x2 (ix2 p q)
      = (∑ k : Fin 128, x0 (ix2 p k) * x2 (ix2 q (col 0 (by omega) k))
          + ∑ k : Fin 128, val_main_v22 (F := Ideal) x0 x1 (ix2 p k) * x2 (ix2 q (col 128 (by omega) k)))
        + ∑ k : Fin 128, val_main_v45 (F := Ideal) x0 x1 (ix2 p k) * x2 (ix2 q (col 256 (by omega) k)) := by
  unfold val_main_v48
  refine (PlainDot.dotGeneral_apply plain none _ (val_main_v46 (F := Ideal) x0 x1) (val_main_v47 (F := Ideal) x2) p q).trans ?_
  rw [sum_three]
  simp only [cat_fst, cat_snd, cat_thd, wT_at]

/-- The host's result array is the fused layer's function of the features, the hops, the weight and the bias. -/
theorem result_eq :
    val_main_v51 (F := Ideal) x0 x1 x2 x3
      = G x0 (val_main_v22 (F := Ideal) x0 x1) (val_main_v45 (F := Ideal) x0 x1) x2 x3 := by
  funext i
  obtain ⟨p, q, rfl⟩ : ∃ (p : Fin 50000) (q : Fin 128), i = ix2 p q := ⟨i 0, i 1, eq_ix2 i⟩
  rw [G_apply, val_main_v51_apply, bias_at, prod_at, Ideal.addf_def]
  rfl

end Cert.ReferenceIdeal.Lin3

end
-- ==== Proof.lean ====
/-
  Two-hop mean aggregation followed by one linear layer, fused: the kernel against the plain host program,
  over the extended reals.

  Both programs compute the two hops h1, h2 of mean aggregation over in-neighbours by the same chain of host
  operations (gathers, scattered sums, a division by the in-degree clamped below by one), so each hop is one
  function of the features x and the edge list, carried unopened on both sides.
  The host program then sets x, h1, h2 side by side into 384 columns and takes ONE product with the
  transposed weight, plus the bias:   out(p,q) = Σ_{k<384} [x|h1|h2](p,k)·W(q,k) + b(q).
  The kernel cuts the transposed weight into its three 128-row blocks and, ten row blocks of 5000 at a time,
  adds three products into zero accumulators and then the bias row:
      out(p,q) = ((Σ_{k<128} x(p,k)·W(q,k) + Σ_{k<128} h1(p,k)·W(q,128+k)) + Σ_{k<128} h2(p,k)·W(q,256+k)) + b(q).
  Narrowing to the shorter float format is the identity on the extended reals, and a sum over 384 positions is
  the sum of its three blocks because addition there is commutative and associative, the infinities included;
  so the two results are one function (`Cert.Lin3.G`) and no finiteness of the inputs is used.

  The three frames: the kernel's two are its generated frame certificates; the host program's is its generated
  run with the result dropped. The idealization rewrote nothing, so `preserves` is trivial.
-/
import proofs.«155205_j936302871073_1_alg».proof.Defs
import proofs.«155205_j936302871073_1_alg».proof.Proof.Gen.Kernel
import proofs.«155205_j936302871073_1_alg».proof.Proof.Gen.Kernel.Skeleton
import proofs.«155205_j936302871073_1_alg».proof.Proof.Gen.Kernel.Launch
import proofs.«155205_j936302871073_1_alg».proof.Proof.Gen.Kernel.Points
import proofs.«155205_j936302871073_1_alg».proof.Proof.Gen.Kernel.Frame
import proofs.«155205_j936302871073_1_alg».proof.Proof.Gen.KernelIdeal
import proofs.«155205_j936302871073_1_alg».proof.Proof.Gen.KernelIdeal.Skeleton
import proofs.«155205_j936302871073_1_alg».proof.Proof.Gen.KernelIdeal.Launch
import proofs.«155205_j936302871073_1_alg».proof.Proof.Gen.KernelIdeal.Points
import proofs.«155205_j936302871073_1_alg».proof.Proof.Gen.KernelIdeal.Frame
import proofs.«155205_j936302871073_1_alg».proof.Proof.Gen.ReferenceIdeal
import proofs.«155205_j936302871073_1_alg».proof.Proof.Gen.Pre_finite_inputs
import proofs.«155205_j936302871073_1_alg».proof.Proof.Gen.KernelIdeal.Value
import proofs.«155205_j936302871073_1_alg».proof.Proof.Gen.ReferenceIdeal.Run
import proofs.«155205_j936302871073_1_alg».proof.Proof.Gen.ReferenceIdeal.Read
import proofs.«155205_j936302871073_1_alg».proof.Proof.KernelValue
import proofs.«155205_j936302871073_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, the kernel's result array ends at the layer's function of
    them (the kernel's run, read block by block) and so does the host program's (its run, read entry by entry). -/
theorem algebraic : Cert.algebraic_KernelIdeal_ReferenceIdeal := by
  intro m ρ m' ρ' _ hagree
  refine ⟨fun c => Cert.KernelIdeal.Lin3.result m c, Cert.KernelIdeal.Lin3.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  show _ = Cert.Lin3.G (Cert.KernelIdeal.Lin3.feats m c) (Cert.KernelIdeal.Lin3.hop1 m c) (Cert.KernelIdeal.Lin3.hop2 m c)
    (Cert.KernelIdeal.Lin3.weight m c) (Cert.KernelIdeal.Lin3.biasv m c)
  rw [Cert.KernelIdeal.Lin3.hop1_eq, Cert.KernelIdeal.Lin3.hop2_eq]
  exact Cert.ReferenceIdeal.Lin3.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
